-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 114
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x32, .f32⟩
  | .hbm, ⟨81, _⟩ => ⟨S3300000x1, .f32⟩
  | .hbm, ⟨82, _⟩ => ⟨S3300000x32, .f32⟩
  | .hbm, ⟨83, _⟩ => ⟨S3300000x32, .f32⟩
  | .hbm, ⟨84, _⟩ => ⟨S_, .f32⟩
  | .hbm, ⟨85, _⟩ => ⟨S100000x32, .f32⟩
  | .hbm, ⟨86, _⟩ => ⟨S3300000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000x32, .f32⟩
  | .hbm, ⟨93, _⟩ => ⟨S100000x32, .f32⟩
  | .hbm, ⟨94, _⟩ => ⟨S100000x1, .f32⟩
  | .hbm, ⟨95, _⟩ => ⟨S_, .i32⟩
  | .hbm, ⟨96, _⟩ => ⟨S3300000, .i32⟩
  | .hbm, ⟨97, _⟩ => ⟨S3300000, .i1⟩
  | .hbm, ⟨98, _⟩ => ⟨S_, .i32⟩
  | .hbm, ⟨99, _⟩ => ⟨S3300000, .i32⟩
  | .hbm, ⟨100, _⟩ => ⟨S3300000, .i32⟩
  | .hbm, ⟨101, _⟩ => ⟨S3300000, .i32⟩
  | .hbm, ⟨102, _⟩ => ⟨S3300000x1, .i32⟩
  | .hbm, ⟨103, _⟩ => ⟨S3300000x1, .f32⟩
  | .hbm, ⟨104, _⟩ => ⟨S3300000x1, .f32⟩
  | .hbm, ⟨105, _⟩ => ⟨S3300000x1, .f32⟩
  | .hbm, ⟨106, _⟩ => ⟨S_, .f32⟩
  | .hbm, ⟨107, _⟩ => ⟨S100000x1, .f32⟩
  | .hbm, ⟨108, _⟩ => ⟨S3300000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x1, .f32⟩
  | .local _ .vmem, ⟨13, _⟩ => ⟨S10000x1, .f32⟩
  | .local _ .vmem, ⟨14, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1.size a ≤ S32x1.size a
  hwx2_1 : ∀ i : grid2.Coords, EltTy.bits .f32 = 32 ∨ (Rect.block (s := S32x1) S32x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x32, .f32⟩
  | .hbm, ⟨81, _⟩ => ⟨S3300000x1, .f32⟩
  | .hbm, ⟨82, _⟩ => ⟨S3300000x32, .f32⟩
  | .hbm, ⟨83, _⟩ => ⟨S3300000x32, .f32⟩
  | .hbm, ⟨84, _⟩ => ⟨S_, .f32⟩
  | .hbm, ⟨85, _⟩ => ⟨S100000x32, .f32⟩
  | .hbm, ⟨86, _⟩ => ⟨S3300000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000x32, .f32⟩
  | .hbm, ⟨93, _⟩ => ⟨S100000x32, .f32⟩
  | .hbm, ⟨94, _⟩ => ⟨S100000x1, .f32⟩
  | .hbm, ⟨95, _⟩ => ⟨S_, .i32⟩
  | .hbm, ⟨96, _⟩ => ⟨S3300000, .i32⟩
  | .hbm, ⟨97, _⟩ => ⟨S3300000, .i1⟩
  | .hbm, ⟨98, _⟩ => ⟨S_, .i32⟩
  | .hbm, ⟨99, _⟩ => ⟨S3300000, .i32⟩
  | .hbm, ⟨100, _⟩ => ⟨S3300000, .i32⟩
  | .hbm, ⟨101, _⟩ => ⟨S3300000, .i32⟩
  | .hbm, ⟨102, _⟩ => ⟨S3300000x1, .i32⟩
  | .hbm, ⟨103, _⟩ => ⟨S3300000x1, .f32⟩
  | .hbm, ⟨104, _⟩ => ⟨S3300000x1, .f32⟩
  | .hbm, ⟨105, _⟩ => ⟨S3300000x1, .f32⟩
  | .hbm, ⟨106, _⟩ => ⟨S_, .f32⟩
  | .hbm, ⟨107, _⟩ => ⟨S100000x1, .f32⟩
  | .hbm, ⟨108, _⟩ => ⟨S3300000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.HostChain.lean ====
import proofs.«136813_j27367531610530_1_alg».proof.Proof.Gen.KernelIdeal.Frame
import proofs.«136813_j27367531610530_1_alg».proof.Proof.RefRead
import Idealize.ShloMosaic.Lib.StableHlo.Run

/-!
  The host operations of the kernel program against the reference's stages.

  Apart from its three matrix-product regions the kernel program applies, in the same order and to the same
  buffers, the host operations of the reference: from the edge list it builds the source and target index
  vectors (each edge end followed by the self loops `0 … n - 1`), the target degrees and from them the edge
  weights `d(src)^(-1/2) · d(dst)^(-1/2)`; after each product it gathers the product's rows at the sources,
  scales them by the weights, adds them up per target, adds the bias and (but for the last layer) clips at
  zero.  So each stretch of host operations, read from the contents it starts from, computes the
  reference's stage of the same name, provided the product array it reads holds the reference's product.
  The buffers a later stretch reads that an earlier one wrote (the two index vectors, the weights, the
  argument arrays) are written by nothing in between, so they are read back unchanged.
-/

set_option maxRecDepth 16384

noncomputable section

namespace Cert.KernelIdeal.HostChain

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The argument arrays as launched, under the names the stages take them by. -/
abbrev a0 : (⟨S100000x128, .f32⟩ : BufTy).Contents (Elt F) := m ((c.tc : Thread nD τ).loc main_arg0)
abbrev a1 : (⟨S2x3200000, .i32⟩ : BufTy).Contents (Elt F) := m ((c.tc : Thread nD τ).loc main_arg1)
abbrev a2 : (⟨S128x32, .f32⟩ : BufTy).Contents (Elt F) := m ((c.tc : Thread nD τ).loc main_arg2)
abbrev a3 : (⟨S32, .f32⟩ : BufTy).Contents (Elt F) := m ((c.tc : Thread nD τ).loc main_arg3)
abbrev a4 : (⟨S32x32, .f32⟩ : BufTy).Contents (Elt F) := m ((c.tc : Thread nD τ).loc main_arg4)
abbrev a5 : (⟨S32, .f32⟩ : BufTy).Contents (Elt F) := m ((c.tc : Thread nD τ).loc main_arg5)
abbrev a6 : (⟨S32x1, .f32⟩ : BufTy).Contents (Elt F) := m ((c.tc : Thread nD τ).loc main_arg6)
abbrev a7 : (⟨S1, .f32⟩ : BufTy).Contents (Elt F) := m ((c.tc : Thread nD τ).loc main_arg7)

/-! ## Before the first product: the index vectors and the edge weights -/

theorem entry0_arg0 : W3 m ρ c (Proc.devRef .tc main_arg0) = a0 m c := by
  show after hostOps0_2 (after hostOps0_1 (after hostOps0 (W0 m ρ c))) (Proc.devRef .tc main_arg0) = _
  after_results_simp <;> rfl

theorem entry0_arg2 : W3 m ρ c (Proc.devRef .tc main_arg2) = a2 m c := by
  show after hostOps0_2 (after hostOps0_1 (after hostOps0 (W0 m ρ c))) (Proc.devRef .tc main_arg2) = _
  after_results_simp <;> rfl

/-! The first stretch is three runs of host operations; each is read from the contents the one before it left. -/

/-- After the first run: the source index vector, -/
theorem src_at1 : W1 m ρ c (Proc.devRef .tc main_v3) = val_main_v3 (F := F) (a1 m c) := by
  show after hostOps0 (W0 m ρ c) (Proc.devRef .tc main_v3) = _
  after_results
  rfl

/-- the target index vector, -/
theorem dst_at1 : W1 m ρ c (Proc.devRef .tc main_v6) = val_main_v6 (F := F) (a1 m c) := by
  show after hostOps0 (W0 m ρ c) (Proc.devRef .tc main_v6) = _
  after_results
  rfl

/-- which targets have a positive degree, -/
theorem pos_at1 : W1 m ρ c (Proc.devRef .tc main_v12) = val_main_v12 (F := F) (a1 m c) := by
  show after hostOps0 (W0 m ρ c) (Proc.devRef .tc main_v12) = _
  after_results
  rfl

/-- the degrees' inverse square roots, -/
theorem rsqrt_at1 : W1 m ρ c (Proc.devRef .tc main_v13) = val_main_v13 (F := F) (a1 m c) := by
  show after hostOps0 (W0 m ρ c) (Proc.devRef .tc main_v13) = _
  after_results
  rfl

/-- and the zero that replaces the inverse square root of a zero degree. -/
theorem zero_at1 : W1 m ρ c (Proc.devRef .tc main_cst_2) = val_main_cst_2 (F := F) := by
  show after hostOps0 (W0 m ρ c) (Proc.devRef .tc main_cst_2) = _
  after_results
  rfl

/-- After the second run: the per-node factor `d^(-1/2)`, zero at a zero degree. -/
theorem dinv_at2 : W2 m ρ c (Proc.devRef .tc main_v14) = val_main_v14 (F := F) (a1 m c) := by
  show after hostOps0_1 (W1 m ρ c) (Proc.devRef .tc main_v14) = _
  generalize hW : W1 m ρ c = W
  after_results_simp
  subst hW
  rw [pos_at1, rsqrt_at1, zero_at1]
  rfl

theorem src_at2 : W2 m ρ c (Proc.devRef .tc main_v3) = val_main_v3 (F := F) (a1 m c) := by
  refine Eq.trans ?_ (src_at1 m ρ c)
  show after hostOps0_1 (W1 m ρ c) (Proc.devRef .tc main_v3) = _
  generalize W1 m ρ c = W
  after_results_simp

theorem dst_at2 : W2 m ρ c (Proc.devRef .tc main_v6) = val_main_v6 (F := F) (a1 m c) := by
  refine Eq.trans ?_ (dst_at1 m ρ c)
  show after hostOps0_1 (W1 m ρ c) (Proc.devRef .tc main_v6) = _
  generalize W1 m ρ c = W
  after_results_simp

/-- After the third run, where the first region is entered: the source index vector, -/
theorem prep_src : W3 m ρ c (Proc.devRef .tc main_v3) = val_main_v3 (F := F) (a1 m c) := by
  refine Eq.trans ?_ (src_at2 m ρ c)
  show after hostOps0_2 (W2 m ρ c) (Proc.devRef .tc main_v3) = _
  generalize W2 m ρ c = W
  after_results_simp

/-- the target index vector, -/
theorem prep_dst : W3 m ρ c (Proc.devRef .tc main_v6) = val_main_v6 (F := F) (a1 m c) := by
  refine Eq.trans ?_ (dst_at2 m ρ c)
  show after hostOps0_2 (W2 m ρ c) (Proc.devRef .tc main_v6) = _
  generalize W2 m ρ c = W
  after_results_simp

/-- and the edge weights: the product of the two ends' factors. -/
theorem prep_norm : W3 m ρ c (Proc.devRef .tc main_v29) = val_main_v29 (F := F) (a1 m c) := by
  show after hostOps0_2 (W2 m ρ c) (Proc.devRef .tc main_v29) = _
  generalize hW : W2 m ρ c = W
  after_results_simp
  subst hW
  rw [dinv_at2, src_at2, dst_at2]
  rfl

/-! ## What is read back later: written by nothing after the first stretch -/

/-- The buffers a later item reads back: the two index vectors, the edge weights, and the argument arrays the
    first stretch and the first region do not read. -/
abbrev ReadBack (b : Ref sig .tc) : Prop :=
  b = main_v3 ∨ b = main_v6 ∨ b = main_v29 ∨ b = main_arg3 ∨ b = main_arg4 ∨ b = main_arg5 ∨ b = main_arg6 ∨ b = main_arg7

/-- None of them is an array of the first region, -/
theorem keep43 (b : Ref sig .tc) (hb : ReadBack b) :
    W4 m ρ c (Proc.devRef .tc b) = W3 m ρ c (Proc.devRef .tc b) := by
  rcases hb with rfl | rfl | rfl | rfl | rfl | rfl | rfl | rfl <;> exact W4_of_ne m ρ c _ (by decide)

/-- none is written by the host operations after the first product, -/
theorem keep64 (b : Ref sig .tc) (hb : ReadBack b) :
    W6 m ρ c (Proc.devRef .tc b) = W4 m ρ c (Proc.devRef .tc b) := by
  rcases hb with rfl | rfl | rfl | rfl | rfl | rfl | rfl | rfl <;>
  · show after hostOps1_1 (after hostOps1 (W4 m ρ c)) _ = _
    after_results_simp

/-- none is an array the second region writes (its right operand is one it only reads), -/
theorem keep76 (b : Ref sig .tc) (hb : ReadBack b) :
    W7 m ρ c (Proc.devRef .tc b) = W6 m ρ c (Proc.devRef .tc b) := by
  rcases hb with rfl | rfl | rfl | rfl | rfl | rfl | rfl | rfl <;>
  first
  | exact W7_of_ne m ρ c _ (by decide)
  | exact (W7_arr m ρ c 1).trans (((dat1 (V6 m ρ) c).arrAt_in 1 rfl _).trans (A_eq1 (V6 m ρ) c 1))

/-- none is written by the host operations after the second product, -/
theorem keep97 (b : Ref sig .tc) (hb : ReadBack b) :
    W9 m ρ c (Proc.devRef .tc b) = W7 m ρ c (Proc.devRef .tc b) := by
  rcases hb with rfl | rfl | rfl | rfl | rfl | rfl | rfl | rfl <;>
  · show after hostOps2_1 (after hostOps2 (W7 m ρ c)) _ = _
    after_results_simp

/-- and none is an array the third region writes (its right operand is one it only reads). -/
theorem keep109 (b : Ref sig .tc) (hb : ReadBack b) :
    W10 m ρ c (Proc.devRef .tc b) = W9 m ρ c (Proc.devRef .tc b) := by
  rcases hb with rfl | rfl | rfl | rfl | rfl | rfl | rfl | rfl <;>
  first
  | exact W10_of_ne m ρ c _ (by decide)
  | exact (W10_arr m ρ c 1).trans (((dat2 (V9 m ρ) c).arrAt_in 1 rfl _).trans (A_eq2 (V9 m ρ) c 1))

/-- So at every later boundary they hold what the first region found. -/
theorem carried (b : Ref sig .tc) (hb : ReadBack b) :
    W4 m ρ c (Proc.devRef .tc b) = W3 m ρ c (Proc.devRef .tc b)
    ∧ W6 m ρ c (Proc.devRef .tc b) = W3 m ρ c (Proc.devRef .tc b)
    ∧ W7 m ρ c (Proc.devRef .tc b) = W3 m ρ c (Proc.devRef .tc b)
    ∧ W9 m ρ c (Proc.devRef .tc b) = W3 m ρ c (Proc.devRef .tc b)
    ∧ W10 m ρ c (Proc.devRef .tc b) = W3 m ρ c (Proc.devRef .tc b) :=
  have h4 := keep43 m ρ c b hb
  have h6 := (keep64 m ρ c b hb).trans h4
  have h7 := (keep76 m ρ c b hb).trans h6
  have h9 := (keep97 m ρ c b hb).trans h7
  ⟨h4, h6, h7, h9, (keep109 m ρ c b hb).trans h9⟩

/-- An argument array the first stretch does not write holds its launch contents when the first region is entered. -/
theorem launched (b : Ref sig .tc)
    (hb : b = main_arg3 ∨ b = main_arg4 ∨ b = main_arg5 ∨ b = main_arg6 ∨ b = main_arg7) :
    W3 m ρ c (Proc.devRef .tc b) = W0 m ρ c (Proc.devRef .tc b) := by
  rcases hb with rfl | rfl | rfl | rfl | rfl <;>
  · show after hostOps0_2 (after hostOps0_1 (after hostOps0 (W0 m ρ c))) _ = _
    after_results_simp

theorem src_at4 : W4 m ρ c (Proc.devRef .tc main_v3) = val_main_v3 (F := F) (a1 m c) :=
  (carried m ρ c main_v3 (by decide)).1.trans (prep_src m ρ c)
theorem dst_at4 : W4 m ρ c (Proc.devRef .tc main_v6) = val_main_v6 (F := F) (a1 m c) :=
  (carried m ρ c main_v6 (by decide)).1.trans (prep_dst m ρ c)
theorem norm_at4 : W4 m ρ c (Proc.devRef .tc main_v29) = val_main_v29 (F := F) (a1 m c) :=
  (carried m ρ c main_v29 (by decide)).1.trans (prep_norm m ρ c)
theorem arg3_at4 : W4 m ρ c (Proc.devRef .tc main_arg3) = a3 m c :=
  (carried m ρ c main_arg3 (by decide)).1.trans (launched m ρ c main_arg3 (by decide))
theorem arg4_at6 : W6 m ρ c (Proc.devRef .tc main_arg4) = a4 m c :=
  (carried m ρ c main_arg4 (by decide)).2.1.trans (launched m ρ c main_arg4 (by decide))
theorem src_at7 : W7 m ρ c (Proc.devRef .tc main_v3) = val_main_v3 (F := F) (a1 m c) :=
  (carried m ρ c main_v3 (by decide)).2.2.1.trans (prep_src m ρ c)
theorem dst_at7 : W7 m ρ c (Proc.devRef .tc main_v6) = val_main_v6 (F := F) (a1 m c) :=
  (carried m ρ c main_v6 (by decide)).2.2.1.trans (prep_dst m ρ c)
theorem norm_at7 : W7 m ρ c (Proc.devRef .tc main_v29) = val_main_v29 (F := F) (a1 m c) :=
  (carried m ρ c main_v29 (by decide)).2.2.1.trans (prep_norm m ρ c)
theorem arg5_at7 : W7 m ρ c (Proc.devRef .tc main_arg5) = a5 m c :=
  (carried m ρ c main_arg5 (by decide)).2.2.1.trans (launched m ρ c main_arg5 (by decide))
theorem arg6_at9 : W9 m ρ c (Proc.devRef .tc main_arg6) = a6 m c :=
  (carried m ρ c main_arg6 (by decide)).2.2.2.1.trans (launched m ρ c main_arg6 (by decide))
theorem src_at10 : W10 m ρ c (Proc.devRef .tc main_v3) = val_main_v3 (F := F) (a1 m c) :=
  (carried m ρ c main_v3 (by decide)).2.2.2.2.trans (prep_src m ρ c)
theorem dst_at10 : W10 m ρ c (Proc.devRef .tc main_v6) = val_main_v6 (F := F) (a1 m c) :=
  (carried m ρ c main_v6 (by decide)).2.2.2.2.trans (prep_dst m ρ c)
theorem norm_at10 : W10 m ρ c (Proc.devRef .tc main_v29) = val_main_v29 (F := F) (a1 m c) :=
  (carried m ρ c main_v29 (by decide)).2.2.2.2.trans (prep_norm m ρ c)
theorem arg7_at10 : W10 m ρ c (Proc.devRef .tc main_arg7) = a7 m c :=
  (carried m ρ c main_arg7 (by decide)).2.2.2.2.trans (launched m ρ c main_arg7 (by decide))

/-! ## The stretches after each product -/

/-- After the first product: gather at the sources, scale by the weights, add up per target, add the bias, clip at
    zero.  If the product array holds the reference's product, the layer's output is the reference's. -/
theorem layer1 (h : W4 m ρ c (Proc.devRef .tc main_v30) = val_main_v30 (F := F) (a0 m c) (a2 m c)) :
    W6 m ρ c (Proc.devRef .tc main_v47) = val_main_v47 (F := F) (a0 m c) (a1 m c) (a2 m c) (a3 m c) := by
  show after hostOps1_1 (after hostOps1 (W4 m ρ c)) (Proc.devRef .tc main_v47) = _
  after_results_simp
  rw [h, src_at4, dst_at4, norm_at4, arg3_at4]
  rfl

/-- After the second product, the same. -/
theorem layer2 (h : W7 m ρ c (Proc.devRef .tc main_v48) = val_main_v48 (F := F) (a0 m c) (a1 m c) (a2 m c) (a3 m c) (a4 m c)) :
    W9 m ρ c (Proc.devRef .tc main_v65)
      = val_main_v65 (F := F) (a0 m c) (a1 m c) (a2 m c) (a3 m c) (a4 m c) (a5 m c) := by
  show after hostOps2_1 (after hostOps2 (W7 m ρ c)) (Proc.devRef .tc main_v65) = _
  after_results_simp
  rw [h, src_at7, dst_at7, norm_at7, arg5_at7]
  rfl

/-- After the third product: the same without the clipping, and the one-column result re-shaped to a vector. -/
theorem layer3 (h : W10 m ρ c (Proc.devRef .tc main_v66)
      = val_main_v66 (F := F) (a0 m c) (a1 m c) (a2 m c) (a3 m c) (a4 m c) (a5 m c) (a6 m c)) :
    W11 m ρ c (Proc.devRef .tc main_v82)
      = val_main_v82 (F := F) (a0 m c) (a1 m c) (a2 m c) (a3 m c) (a4 m c) (a5 m c) (a6 m c) (a7 m c) := by
  show after hostOps3 (W10 m ρ c) (Proc.devRef .tc main_v82) = _
  after_results_simp
  rw [h, src_at10, dst_at10, norm_at10, arg7_at10]
  rfl

end Cert.KernelIdeal.HostChain

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Region0.lean ====
import proofs.«136813_j27367531610530_1_alg».proof.Proof.Gen.KernelIdeal.Frame
import proofs.«136813_j27367531610530_1_alg».proof.Proof.LibDot2
import Idealize.ShloMosaic.Lib.Pipeline.Value
import Idealize.ShloMosaic.Lib.ValueIdx
import Idealize.ShloMosaic.PureOps.Ideal.Laws

/-!
  The first matrix-product region, read as a value at the ideal instance.

  The region runs over ten grid points.  At point `t` it fetches rows `10000 t … 10000 t + 9999` of the
  left array `X : [100000, 128]`, the whole right array `W : [128, 32]`, multiplies them (the two
  operands first narrowed to a shorter float format, which at the ideal instance changes nothing) into an
  all-zero accumulator, and writes the product back as rows `10000 t … 10000 t + 9999` of the
  result.  Entry `(p, q)` of that block is `∑ k, X[10000 t + p, k] * W[k, q]`, which is entry
  `(10000 t + p, q)` of the whole product `X · W`.  The ten blocks tile the result's rows, so
  after the region the result array IS the host's product of the two whole arrays.
-/

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

-- the entry contents of the TensorCore's buffers, any
variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`: the sum over the contracted axis of the products of the two loaded
    blocks' entries. -/
theorem pay_apply (x0 : Vec Ideal S10000x128 .f32) (x1 : Vec Ideal S128x32 .f32) (p : Fin 10000) (q : Fin 32) :
    k0_pay1 (F := Ideal) x0 x1 (ix2 p q) = ∑ k : Fin 128, x0 (ix2 p k) * x1 (ix2 k q) := by
  unfold k0_pay1
  exact Dot2.matmul_zero_mm_apply dot_S10000x128_S128x32_S10000x32_1_0_0_1_n_n.wf none x0 x1 p q

/-- One point's block against the whole product: if the left block is rows `n * 10000 + ·` of `X` and
    the right block is `W`, then the stored value at `y` is the whole product at the index `i` that lies
    `n` blocks further down. -/
theorem point_eq (x0 : Vec Ideal S10000x128 .f32) (x1 : Vec Ideal S128x32 .f32)
    (X : FVec Ideal S100000x128 .f32) (W : FVec Ideal S128x32 .f32)
    (wf : DotDims.WF ⟨2, ![100000, 128]⟩ ⟨2, ![128, 32]⟩ ⟨2, ![100000, 32]⟩ [1] [0] [0] [1] [] [])
    (n : Nat) (y : S10000x32.Idx) (i : S100000x32.Idx)
    (hi0 : (i 0).val = n * 10000 + (y 0).val) (hi1 : (i 1).val = (y 1).val)
    (hx : ∀ (p : Fin 10000) (P : Fin 100000) (k : Fin 128), P.val = n * 10000 + p.val → x0 (ix2 p k) = X (ix2 P k))
    (hw : x1 = W) :
    k0_pay1 (F := Ideal) x0 x1 y = Host.dotGeneral (φ₁ := .f32) (φ₂ := .f32) (Dot2.mmDims 100000 128 32 wf) none X W i := by
  obtain ⟨p, q, rfl⟩ : ∃ (p : Fin 10000) (q : Fin 32), y = ix2 p q := ⟨y 0, y 1, eq_ix2 y⟩
  obtain ⟨P, Q, rfl⟩ : ∃ (P : Fin 100000) (Q : Fin 32), i = ix2 P Q := ⟨i 0, i 1, eq_ix2 i⟩
  have hQ : Q = q := Fin.ext hi1
  subst hQ hw
  rw [pay_apply, Dot2.host_dotGeneral_mm_apply]
  exact Finset.sum_congr rfl fun k _ => by rw [hx p P k hi0]

/-- The printed index maps over the grid: the left operand's and the result's block row is the point's number,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `t * 10000 + ·` of its array. -/
theorem lhs_block (c : Dev nD) (t : Fin cfg0.N) (p : Fin 10000) (P : Fin 100000) (k : Fin 128)
    (hP : P.val = t.val * 10000 + p.val) :
    (iblk0 V c 0 t : Vec Ideal S10000x128 .f32) (ix2 p k) = (V c main_arg0 : S100000x128.Idx → EReal) (ix2 P k) := by
  obtain ⟨e0, e1, -, -, -, -⟩ := idx_facts t
  unfold iblk0
  rw [View.read_apply]
  show (V c main_arg0 : S100000x128.Idx → EReal) _ = (V c main_arg0 : S100000x128.Idx → EReal) _
  congr 1
  funext a
  apply Fin.ext
  match a with
  | ⟨0, _⟩ => show win0_0.index t (0 : Fin 2) * 10000 + 1 * p.val = P.val; rw [e0, hP]; omega
  | ⟨1, _⟩ => show win0_0.index t (1 : Fin 2) * 128 + 1 * k.val = k.val; rw [e1]; omega

/-- The right operand's block at every point is its whole array. -/
theorem rhs_block (c : Dev nD) (t : Fin cfg0.N) :
    (iblk0 V c 1 t : Vec Ideal S128x32 .f32) = (V c main_arg2 : S128x32.Idx → EReal) := by
  obtain ⟨-, -, e2, e3, -, -⟩ := idx_facts t
  funext y
  unfold iblk0
  rw [View.read_apply]
  show (V c main_arg2 : S128x32.Idx → EReal) _ = (V c main_arg2 : S128x32.Idx → EReal) y
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 32 + 1 * (y 1).val = (y 1).val; rw [e3]; omega

/-- The whole product of the two arrays as the region finds them. -/
abbrev product (c : Dev nD)
    (wf : DotDims.WF ⟨2, ![100000, 128]⟩ ⟨2, ![128, 32]⟩ ⟨2, ![100000, 32]⟩ [1] [0] [0] [1] [] []) :
    FVec Ideal S100000x32 .f32 :=
  Host.dotGeneral (φ₁ := .f32) (φ₂ := .f32) (Dot2.mmDims 100000 128 32 wf) none (V c main_arg0 : FVec Ideal S100000x128 .f32) (V c main_arg2 : FVec Ideal S128x32 .f32)

/-- What point `t` writes back is block `t` of the whole product. -/
theorem flushed_eq (c : Dev nD)
    (wf : DotDims.WF ⟨2, ![100000, 128]⟩ ⟨2, ![128, 32]⟩ ⟨2, ![100000, 32]⟩ [1] [0] [0] [1] [] [])
    (t : Fin cfg0.N) :
    (dat0 V c).flushed 2 t = ((cfg0.win 2).blk t).view.read (Elt Ideal) (product V c wf) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  funext j
  show k0_pay1 (F := Ideal) (iblk0 V c 0 t) (iblk0 V c 1 t) j = product V c wf (((cfg0.win 2).blk t).view.emb j)
  exact point_eq (iblk0 V c 0 t) (iblk0 V c 1 t) (V c main_arg0) (V c main_arg2) wf t.val j
    (((cfg0.win 2).blk t).view.emb j)
    (by show win0_2.index t (0 : Fin 2) * 10000 + 1 * (j 0).val = t.val * 10000 + (j 0).val; rw [e4]; omega)
    (by show win0_2.index t (1 : Fin 2) * 32 + 1 * (j 1).val = (j 1).val; rw [e5]; omega)
    (fun p P k hP => lhs_block V c t p P k hP)
    (rhs_block V c t)

/-- An index of the result is in point `t`'s block iff each coordinate is in the block's range. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- The ten blocks cover the result: row `r` lies in block `r / 10000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  obtain ⟨-, -, -, -, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 32 ≤ (i 1).val ∧ (i 1).val < win0_2.index t (1 : Fin 2) * 32 + 32; rw [e5]; omega

/-- After the region the result array is the host's product of the two arrays it was entered with. -/
theorem value (c : Dev nD)
    (wf : DotDims.WF ⟨2, ![100000, 128]⟩ ⟨2, ![128, 32]⟩ ⟨2, ![100000, 32]⟩ [1] [0] [0] [1] [] []) :
    (dat0 V c).arrAt 2 cfg0.N = product V c wf :=
  (dat0 V c).arrAt_eq_of_cover 2 (product V c wf) (fun t _ => flushed_eq V c wf t) (cover)

end Cert.KernelIdeal.Region0

end
-- ==== Proof.Region1.lean ====
import proofs.«136813_j27367531610530_1_alg».proof.Proof.Gen.KernelIdeal.Frame
import proofs.«136813_j27367531610530_1_alg».proof.Proof.LibDot2
import Idealize.ShloMosaic.Lib.Pipeline.Value
import Idealize.ShloMosaic.Lib.ValueIdx
import Idealize.ShloMosaic.PureOps.Ideal.Laws

/-!
  The second matrix-product region, read as a value at the ideal instance.

  The region runs over ten grid points.  At point `t` it fetches rows `10000 t … 10000 t + 9999` of the
  left array `X : [100000, 32]`, the whole right array `W : [32, 32]`, multiplies them (the two
  operands first (the left one re-shaped to its own shape and both) narrowed to a shorter float format, which at the ideal instance changes nothing) into an
  all-zero accumulator, and writes the product back as rows `10000 t … 10000 t + 9999` of the
  result.  Entry `(p, q)` of that block is `∑ k, X[10000 t + p, k] * W[k, q]`, which is entry
  `(10000 t + p, q)` of the whole product `X · W`.  The ten blocks tile the result's rows, so
  after the region the result array IS the host's product of the two whole arrays.
-/

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

-- the entry contents of the TensorCore's buffers, any
variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`: the sum over the contracted axis of the products of the two loaded
    blocks' entries. -/
theorem pay_apply (x0 : Vec Ideal S10000x32 .f32) (x1 : Vec Ideal S32x32 .f32) (p : Fin 10000) (q : Fin 32) :
    k1_pay1 (F := Ideal) x0 x1 (ix2 p q) = ∑ k : Fin 32, x0 (ix2 p k) * x1 (ix2 k q) := by
  unfold k1_pay1
  rw [shapeCast_self]
  exact Dot2.matmul_zero_mm_apply dot_S10000x32_S32x32_S10000x32_1_0_0_1_n_n.wf none x0 x1 p q

/-- One point's block against the whole product: if the left block is rows `n * 10000 + ·` of `X` and
    the right block is `W`, then the stored value at `y` is the whole product at the index `i` that lies
    `n` blocks further down. -/
theorem point_eq (x0 : Vec Ideal S10000x32 .f32) (x1 : Vec Ideal S32x32 .f32)
    (X : FVec Ideal S100000x32 .f32) (W : FVec Ideal S32x32 .f32)
    (wf : DotDims.WF ⟨2, ![100000, 32]⟩ ⟨2, ![32, 32]⟩ ⟨2, ![100000, 32]⟩ [1] [0] [0] [1] [] [])
    (n : Nat) (y : S10000x32.Idx) (i : S100000x32.Idx)
    (hi0 : (i 0).val = n * 10000 + (y 0).val) (hi1 : (i 1).val = (y 1).val)
    (hx : ∀ (p : Fin 10000) (P : Fin 100000) (k : Fin 32), P.val = n * 10000 + p.val → x0 (ix2 p k) = X (ix2 P k))
    (hw : x1 = W) :
    k1_pay1 (F := Ideal) x0 x1 y = Host.dotGeneral (φ₁ := .f32) (φ₂ := .f32) (Dot2.mmDims 100000 32 32 wf) none X W i := by
  obtain ⟨p, q, rfl⟩ : ∃ (p : Fin 10000) (q : Fin 32), y = ix2 p q := ⟨y 0, y 1, eq_ix2 y⟩
  obtain ⟨P, Q, rfl⟩ : ∃ (P : Fin 100000) (Q : Fin 32), i = ix2 P Q := ⟨i 0, i 1, eq_ix2 i⟩
  have hQ : Q = q := Fin.ext hi1
  subst hQ hw
  rw [pay_apply, Dot2.host_dotGeneral_mm_apply]
  exact Finset.sum_congr rfl fun k _ => by rw [hx p P k hi0]

/-- The printed index maps over the grid: the left operand's and the result's block row is the point's number,
    every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `t * 10000 + ·` of its array. -/
theorem lhs_block (c : Dev nD) (t : Fin cfg1.N) (p : Fin 10000) (P : Fin 100000) (k : Fin 32)
    (hP : P.val = t.val * 10000 + p.val) :
    (iblk1 V c 0 t : Vec Ideal S10000x32 .f32) (ix2 p k) = (V c main_v47 : S100000x32.Idx → EReal) (ix2 P k) := by
  obtain ⟨e0, e1, -, -, -, -⟩ := idx_facts t
  unfold iblk1
  rw [View.read_apply]
  show (V c main_v47 : S100000x32.Idx → EReal) _ = (V c main_v47 : S100000x32.Idx → EReal) _
  congr 1
  funext a
  apply Fin.ext
  match a with
  | ⟨0, _⟩ => show win1_0.index t (0 : Fin 2) * 10000 + 1 * p.val = P.val; rw [e0, hP]; omega
  | ⟨1, _⟩ => show win1_0.index t (1 : Fin 2) * 32 + 1 * k.val = k.val; rw [e1]; omega

/-- The right operand's block at every point is its whole array. -/
theorem rhs_block (c : Dev nD) (t : Fin cfg1.N) :
    (iblk1 V c 1 t : Vec Ideal S32x32 .f32) = (V c main_arg4 : S32x32.Idx → EReal) := by
  obtain ⟨-, -, e2, e3, -, -⟩ := idx_facts t
  funext y
  unfold iblk1
  rw [View.read_apply]
  show (V c main_arg4 : S32x32.Idx → EReal) _ = (V c main_arg4 : S32x32.Idx → EReal) y
  congr 1
  funext a
  apply Fin.ext
  match a with
  | ⟨0, _⟩ => show win1_1.index t (0 : Fin 2) * 32 + 1 * (y 0).val = (y 0).val; rw [e2]; omega
  | ⟨1, _⟩ => show win1_1.index t (1 : Fin 2) * 32 + 1 * (y 1).val = (y 1).val; rw [e3]; omega

/-- The whole product of the two arrays as the region finds them. -/
abbrev product (c : Dev nD)
    (wf : DotDims.WF ⟨2, ![100000, 32]⟩ ⟨2, ![32, 32]⟩ ⟨2, ![100000, 32]⟩ [1] [0] [0] [1] [] []) :
    FVec Ideal S100000x32 .f32 :=
  Host.dotGeneral (φ₁ := .f32) (φ₂ := .f32) (Dot2.mmDims 100000 32 32 wf) none (V c main_v47 : FVec Ideal S100000x32 .f32) (V c main_arg4 : FVec Ideal S32x32 .f32)

/-- What point `t` writes back is block `t` of the whole product. -/
theorem flushed_eq (c : Dev nD)
    (wf : DotDims.WF ⟨2, ![100000, 32]⟩ ⟨2, ![32, 32]⟩ ⟨2, ![100000, 32]⟩ [1] [0] [0] [1] [] [])
    (t : Fin cfg1.N) :
    (dat1 V c).flushed 2 t = ((cfg1.win 2).blk t).view.read (Elt Ideal) (product V c wf) := by
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S10000x32) hz, View.ld_unit_zero (S := S32x32) hz]
  funext j
  show k1_pay1 (F := Ideal) (iblk1 V c 0 t) (iblk1 V c 1 t) j = product V c wf (((cfg1.win 2).blk t).view.emb j)
  exact point_eq (iblk1 V c 0 t) (iblk1 V c 1 t) (V c main_v47) (V c main_arg4) wf t.val j
    (((cfg1.win 2).blk t).view.emb j)
    (by show win1_2.index t (0 : Fin 2) * 10000 + 1 * (j 0).val = t.val * 10000 + (j 0).val; rw [e4]; omega)
    (by show win1_2.index t (1 : Fin 2) * 32 + 1 * (j 1).val = (j 1).val; rw [e5]; omega)
    (fun p P k hP => lhs_block V c t p P k hP)
    (rhs_block V c t)

/-- An index of the result is in point `t`'s block iff each coordinate is in the block's range. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- The ten blocks cover the result: row `r` lies in block `r / 10000`. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  obtain ⟨-, -, -, -, e4, e5⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 32 ≤ (i 1).val ∧ (i 1).val < win1_2.index t (1 : Fin 2) * 32 + 32; rw [e5]; omega

/-- After the region the result array is the host's product of the two arrays it was entered with. -/
theorem value (c : Dev nD)
    (wf : DotDims.WF ⟨2, ![100000, 32]⟩ ⟨2, ![32, 32]⟩ ⟨2, ![100000, 32]⟩ [1] [0] [0] [1] [] []) :
    (dat1 V c).arrAt 2 cfg1.N = product V c wf :=
  (dat1 V c).arrAt_eq_of_cover 2 (product V c wf) (fun t _ => flushed_eq V c wf t) (cover)

end Cert.KernelIdeal.Region1

end
-- ==== Proof.Region2.lean ====
import proofs.«136813_j27367531610530_1_alg».proof.Proof.Gen.KernelIdeal.Frame
import proofs.«136813_j27367531610530_1_alg».proof.Proof.LibDot2
import Idealize.ShloMosaic.Lib.Pipeline.Value
import Idealize.ShloMosaic.Lib.ValueIdx
import Idealize.ShloMosaic.PureOps.Ideal.Laws

/-!
  The third matrix-product region, read as a value at the ideal instance.

  The region runs over ten grid points.  At point `t` it fetches rows `10000 t … 10000 t + 9999` of the
  left array `X : [100000, 32]`, the whole right array `W : [32, 1]`, multiplies them (the two
  operands first (the left one re-shaped to its own shape and both) narrowed to a shorter float format, which at the ideal instance changes nothing) into an
  all-zero accumulator, and writes the product back as rows `10000 t … 10000 t + 9999` of the
  result.  Entry `(p, q)` of that block is `∑ k, X[10000 t + p, k] * W[k, q]`, which is entry
  `(10000 t + p, q)` of the whole product `X · W`.  The ten blocks tile the result's rows, so
  after the region the result array IS the host's product of the two whole arrays.
-/

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

-- the entry contents of the TensorCore's buffers, any
variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`: the sum over the contracted axis of the products of the two loaded
    blocks' entries. -/
theorem pay_apply (x0 : Vec Ideal S10000x32 .f32) (x1 : Vec Ideal S32x1 .f32) (p : Fin 10000) (q : Fin 1) :
    k2_pay1 (F := Ideal) x0 x1 (ix2 p q) = ∑ k : Fin 32, x0 (ix2 p k) * x1 (ix2 k q) := by
  unfold k2_pay1
  rw [shapeCast_self]
  exact Dot2.matmul_zero_mm_apply dot_S10000x32_S32x1_S10000x1_1_0_0_1_n_n.wf none x0 x1 p q

/-- One point's block against the whole product: if the left block is rows `n * 10000 + ·` of `X` and
    the right block is `W`, then the stored value at `y` is the whole product at the index `i` that lies
    `n` blocks further down. -/
theorem point_eq (x0 : Vec Ideal S10000x32 .f32) (x1 : Vec Ideal S32x1 .f32)
    (X : FVec Ideal S100000x32 .f32) (W : FVec Ideal S32x1 .f32)
    (wf : DotDims.WF ⟨2, ![100000, 32]⟩ ⟨2, ![32, 1]⟩ ⟨2, ![100000, 1]⟩ [1] [0] [0] [1] [] [])
    (n : Nat) (y : S10000x1.Idx) (i : S100000x1.Idx)
    (hi0 : (i 0).val = n * 10000 + (y 0).val) (hi1 : (i 1).val = (y 1).val)
    (hx : ∀ (p : Fin 10000) (P : Fin 100000) (k : Fin 32), P.val = n * 10000 + p.val → x0 (ix2 p k) = X (ix2 P k))
    (hw : x1 = W) :
    k2_pay1 (F := Ideal) x0 x1 y = Host.dotGeneral (φ₁ := .f32) (φ₂ := .f32) (Dot2.mmDims 100000 32 1 wf) none X W i := by
  obtain ⟨p, q, rfl⟩ : ∃ (p : Fin 10000) (q : Fin 1), y = ix2 p q := ⟨y 0, y 1, eq_ix2 y⟩
  obtain ⟨P, Q, rfl⟩ : ∃ (P : Fin 100000) (Q : Fin 1), i = ix2 P Q := ⟨i 0, i 1, eq_ix2 i⟩
  have hQ : Q = q := Fin.ext hi1
  subst hQ hw
  rw [pay_apply, Dot2.host_dotGeneral_mm_apply]
  exact Finset.sum_congr rfl fun k _ => by rw [hx p P k hi0]

/-- The printed index maps over the grid: the left operand's and the result's block row is the point's number,
    every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `t * 10000 + ·` of its array. -/
theorem lhs_block (c : Dev nD) (t : Fin cfg2.N) (p : Fin 10000) (P : Fin 100000) (k : Fin 32)
    (hP : P.val = t.val * 10000 + p.val) :
    (iblk2 V c 0 t : Vec Ideal S10000x32 .f32) (ix2 p k) = (V c main_v65 : S100000x32.Idx → EReal) (ix2 P k) := by
  obtain ⟨e0, e1, -, -, -, -⟩ := idx_facts t
  unfold iblk2
  rw [View.read_apply]
  show (V c main_v65 : S100000x32.Idx → EReal) _ = (V c main_v65 : S100000x32.Idx → EReal) _
  congr 1
  funext a
  apply Fin.ext
  match a with
  | ⟨0, _⟩ => show win2_0.index t (0 : Fin 2) * 10000 + 1 * p.val = P.val; rw [e0, hP]; omega
  | ⟨1, _⟩ => show win2_0.index t (1 : Fin 2) * 32 + 1 * k.val = k.val; rw [e1]; omega

/-- The right operand's block at every point is its whole array. -/
theorem rhs_block (c : Dev nD) (t : Fin cfg2.N) :
    (iblk2 V c 1 t : Vec Ideal S32x1 .f32) = (V c main_arg6 : S32x1.Idx → EReal) := by
  obtain ⟨-, -, e2, e3, -, -⟩ := idx_facts t
  funext y
  unfold iblk2
  rw [View.read_apply]
  show (V c main_arg6 : S32x1.Idx → EReal) _ = (V c main_arg6 : S32x1.Idx → EReal) y
  congr 1
  funext a
  apply Fin.ext
  match a with
  | ⟨0, _⟩ => show win2_1.index t (0 : Fin 2) * 32 + 1 * (y 0).val = (y 0).val; rw [e2]; omega
  | ⟨1, _⟩ => show win2_1.index t (1 : Fin 2) * 1 + 1 * (y 1).val = (y 1).val; rw [e3]; omega

/-- The whole product of the two arrays as the region finds them. -/
abbrev product (c : Dev nD)
    (wf : DotDims.WF ⟨2, ![100000, 32]⟩ ⟨2, ![32, 1]⟩ ⟨2, ![100000, 1]⟩ [1] [0] [0] [1] [] []) :
    FVec Ideal S100000x1 .f32 :=
  Host.dotGeneral (φ₁ := .f32) (φ₂ := .f32) (Dot2.mmDims 100000 32 1 wf) none (V c main_v65 : FVec Ideal S100000x32 .f32) (V c main_arg6 : FVec Ideal S32x1 .f32)

/-- What point `t` writes back is block `t` of the whole product. -/
theorem flushed_eq (c : Dev nD)
    (wf : DotDims.WF ⟨2, ![100000, 32]⟩ ⟨2, ![32, 1]⟩ ⟨2, ![100000, 1]⟩ [1] [0] [0] [1] [] [])
    (t : Fin cfg2.N) :
    (dat2 V c).flushed 2 t = ((cfg2.win 2).blk t).view.read (Elt Ideal) (product V c wf) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S10000x32) hz, View.ld_unit_zero (S := S32x1) hz]
  funext j
  show k2_pay1 (F := Ideal) (iblk2 V c 0 t) (iblk2 V c 1 t) j = product V c wf (((cfg2.win 2).blk t).view.emb j)
  exact point_eq (iblk2 V c 0 t) (iblk2 V c 1 t) (V c main_v65) (V c main_arg6) wf t.val j
    (((cfg2.win 2).blk t).view.emb j)
    (by show win2_2.index t (0 : Fin 2) * 10000 + 1 * (j 0).val = t.val * 10000 + (j 0).val; rw [e4]; omega)
    (by show win2_2.index t (1 : Fin 2) * 1 + 1 * (j 1).val = (j 1).val; rw [e5]; omega)
    (fun p P k hP => lhs_block V c t p P k hP)
    (rhs_block V c t)

/-- An index of the result is in point `t`'s block iff each coordinate is in the block's range. -/
theorem mem_blk (t : Fin cfg2.N) (i : S100000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v66).slice (win2_2.rect t)).set ↔ _
  rw [View.set_slice_whole, Rect.mem_set_unit]
  exact Iff.rfl

/-- The ten blocks cover the result: row `r` lies in block `r / 10000`. -/
theorem cover (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 10 := N_2
  let t : Fin cfg2.N := ⟨(i 0).val / 10000, by rw [hN]; omega⟩
  obtain ⟨-, -, -, -, e4, e5⟩ := idx_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; rw [e4, ht]; omega
  | ⟨1, _⟩ => show win2_2.index t (1 : Fin 2) * 1 ≤ (i 1).val ∧ (i 1).val < win2_2.index t (1 : Fin 2) * 1 + 1; rw [e5]; omega

/-- After the region the result array is the host's product of the two arrays it was entered with. -/
theorem value (c : Dev nD)
    (wf : DotDims.WF ⟨2, ![100000, 32]⟩ ⟨2, ![32, 1]⟩ ⟨2, ![100000, 1]⟩ [1] [0] [0] [1] [] []) :
    (dat2 V c).arrAt 2 cfg2.N = product V c wf :=
  (dat2 V c).arrAt_eq_of_cover 2 (product V c wf) (fun t _ => flushed_eq V c wf t) (cover)

end Cert.KernelIdeal.Region2

end
-- ==== Proof.KernelValue.lean ====
import proofs.«136813_j27367531610530_1_alg».proof.Proof.HostChain
import proofs.«136813_j27367531610530_1_alg».proof.Proof.Region0
import proofs.«136813_j27367531610530_1_alg».proof.Proof.Region1
import proofs.«136813_j27367531610530_1_alg».proof.Proof.Region2

/-!
  The kernel program's result as the reference's last stage, at the ideal instance.

  Each region leaves in its result array the host's product of the two arrays it was entered with
  (its ten row blocks tile the result).  The left array it is entered with is the launch argument (first
  region) or the layer output the stretch before it computed, which is the reference's stage provided the
  product before THAT was the reference's; the right array is a launch argument no one writes.  So, one
  region and one stretch at a time, every product array holds the reference's product and the returned
  vector is the reference's last stage of the launch arguments.
-/

set_option maxRecDepth 65536

noncomputable section

namespace Cert.KernelIdeal.KernelValue

open Cert.KernelIdeal Cert.KernelIdeal.Gen Cert.KernelIdeal.HostChain Cert.ReferenceIdeal.ReadP
open Idealize.ShloMosaic Idealize.ShloMosaic.TcCoe Idealize.SL.Sem

variable (m : (ℓ : Loc nD τ sig) → Buf (Elt Ideal) ℓ) (ρ : Dev nD → PrngReg) (c : Dev nD)

/-- The first product array holds `X · W1`. -/
theorem product1 : W4 m ρ c (Proc.devRef .tc main_v30) = val_main_v30 (F := Ideal) (a0 m c) (a2 m c) := by
  refine ((W4_arr m ρ c 2).trans (Region0.value (V3 m ρ) c
    Cert.ReferenceIdeal.Gen.dot_S100000x128_S128x32_S100000x32_1_0_0_1_n_n_wf)).trans ?_
  show Host.dotGeneral (F := Ideal) (φ₁ := .f32) (φ₂ := .f32) (Dot2.mmDims 100000 128 32 _) none
    (W3 m ρ c (Proc.devRef .tc main_arg0) : FVec Ideal S100000x128 .f32)
    (W3 m ρ c (Proc.devRef .tc main_arg2) : FVec Ideal S128x32 .f32) = _
  rw [entry0_arg0, entry0_arg2]
  rfl

/-- The second product array holds `h1 · W2`, `h1` the first layer's output. -/
theorem product2 : W7 m ρ c (Proc.devRef .tc main_v48)
    = val_main_v48 (F := Ideal) (a0 m c) (a1 m c) (a2 m c) (a3 m c) (a4 m c) := by
  refine ((W7_arr m ρ c 2).trans (Region1.value (V6 m ρ) c
    Cert.ReferenceIdeal.Gen.dot_S100000x32_S32x32_S100000x32_1_0_0_1_n_n_wf)).trans ?_
  show Host.dotGeneral (F := Ideal) (φ₁ := .f32) (φ₂ := .f32) (Dot2.mmDims 100000 32 32 _) none
    (W6 m ρ c (Proc.devRef .tc main_v47) : FVec Ideal S100000x32 .f32)
    (W6 m ρ c (Proc.devRef .tc main_arg4) : FVec Ideal S32x32 .f32) = _
  rw [layer1 m ρ c (product1 m ρ c), arg4_at6]
  rfl

/-- The third product array holds `h2 · W3`, `h2` the second layer's output. -/
theorem product3 : W10 m ρ c (Proc.devRef .tc main_v66)
    = val_main_v66 (F := Ideal) (a0 m c) (a1 m c) (a2 m c) (a3 m c) (a4 m c) (a5 m c) (a6 m c) := by
  refine ((W10_arr m ρ c 2).trans (Region2.value (V9 m ρ) c
    Cert.ReferenceIdeal.Gen.dot_S100000x32_S32x1_S100000x1_1_0_0_1_n_n_wf)).trans ?_
  show Host.dotGeneral (F := Ideal) (φ₁ := .f32) (φ₂ := .f32) (Dot2.mmDims 100000 32 1 _) none
    (W9 m ρ c (Proc.devRef .tc main_v65) : FVec Ideal S100000x32 .f32)
    (W9 m ρ c (Proc.devRef .tc main_arg6) : FVec Ideal S32x1 .f32) = _
  rw [layer2 m ρ c (product2 m ρ c), arg6_at9]
  rfl

/-- The returned vector is the reference's last stage of the launch arguments. -/
theorem result : W11 m ρ c (Proc.devRef .tc main_v82)
    = val_main_v82 (F := Ideal) (a0 m c) (a1 m c) (a2 m c) (a3 m c) (a4 m c) (a5 m c) (a6 m c) (a7 m c) :=
  layer3 m ρ c (product3 m ρ c)

end Cert.KernelIdeal.KernelValue

end
-- ==== Proof.lean ====
/-
  A three-layer graph convolution: `out = Â (relu (Â (relu (Â (X W1) + b1)) W2 + b2)) W3 + b3`, where
  `Â` gathers rows at the edge sources (self loops added), scales them by the symmetric degree weights and
  adds them up per edge target.  The kernel program computes the three dense products `· W` in blocked
  regions (ten row blocks each, the operands narrowed to a shorter float format before the multiply) and
  everything else with the very host operations of the reference, which computes the products on the host.

  At the ideal instance the narrowing is the identity and a product accumulated into zero is the host's
  product, so each region leaves the reference's product in its result array (Proof/Region0-2.lean); the host
  operations between the regions are the reference's own, so they are carried as the reference's stages and
  never opened (Proof/HostChain.lean, Proof/KernelValue.lean).  No law of the extended reals beyond `0 + s = s`
  is used, and the precondition is never opened.  The frames of the two kernel programs are the generated ones;
  the reference's frame is its run with the result dropped; the idealization rewrote nothing.
-/
import proofs.«136813_j27367531610530_1_alg».proof.Defs
import proofs.«136813_j27367531610530_1_alg».proof.Proof.Gen.Kernel
import proofs.«136813_j27367531610530_1_alg».proof.Proof.Gen.Kernel.Skeleton
import proofs.«136813_j27367531610530_1_alg».proof.Proof.Gen.Kernel.Launch
import proofs.«136813_j27367531610530_1_alg».proof.Proof.Gen.Kernel.Points
import proofs.«136813_j27367531610530_1_alg».proof.Proof.Gen.Kernel.Frame
import proofs.«136813_j27367531610530_1_alg».proof.Proof.Gen.KernelIdeal
import proofs.«136813_j27367531610530_1_alg».proof.Proof.Gen.KernelIdeal.Skeleton
import proofs.«136813_j27367531610530_1_alg».proof.Proof.Gen.KernelIdeal.Launch
import proofs.«136813_j27367531610530_1_alg».proof.Proof.Gen.KernelIdeal.Points
import proofs.«136813_j27367531610530_1_alg».proof.Proof.Gen.KernelIdeal.Frame
import proofs.«136813_j27367531610530_1_alg».proof.Proof.Gen.ReferenceIdeal
import proofs.«136813_j27367531610530_1_alg».proof.Proof.Gen.Pre_finite_inputs
import proofs.«136813_j27367531610530_1_alg».proof.Proof.RefRun
import proofs.«136813_j27367531610530_1_alg».proof.Proof.RefRead
import proofs.«136813_j27367531610530_1_alg».proof.Proof.KernelRun
import proofs.«136813_j27367531610530_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel program ends with its result at the reference's last stage of ITS arguments, the reference
    with its result at that stage of its own; the arguments agree. -/
theorem algebraic : Cert.algebraic_KernelIdeal_ReferenceIdeal := by
  intro m ρ m' ρ' _ hagree
  refine ⟨fun c => Cert.KernelIdeal.Gen.W11 m ρ c (Proc.devRef .tc Cert.KernelIdeal.main_v82),
    Cert.KernelIdeal.ValueRun.run_value m ρ, ?_⟩
  refine (θ_run Cert.ReferenceIdeal.defs _ _).mono (fun _ h c => ⟨(h c).1.trans ?_, (h c).2⟩)
    (Cert.ReferenceIdeal.ValueP.run (F := Ideal) m' ρ')
  have e := Cert.KernelIdeal.KernelValue.result m ρ c
  rw [Cert.ReferenceIdeal.ReadP.val_main_v82_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact e.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
